-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1024x256 : Shape := ⟨2, ![1024, 256]⟩
abbrev S1x256 : Shape := ⟨2, ![1, 256]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x256, .f32⟩
  | .hbm, ⟨5, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S1024x256, .f32⟩
  | .local _ .vmem, ⟨5, _⟩ => ⟨S1024x256, .f32⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_14 : BitVec 32 := 0#32
  let v30 : BitVec 1 := Scalar.cmpi .ne v29 c0_i32_14
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x256, .f32⟩
  | .hbm, ⟨5, _⟩ => ⟨S1x256, .f32⟩
  | .hbm, ⟨6, _⟩ => ⟨S8192x256, .f32⟩
  | .hbm, ⟨7, _⟩ => ⟨S8192x256, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x8192 : S_.BroadcastsInDim S8192x8192 (![] : Fin 0 → Fin S8192x8192.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.K.Region0.lean ====
import proofs.«128749_j32134945309413_1_alg».proof.Proof.Gen.Kernel.Launch
import proofs.«128749_j32134945309413_1_alg».proof.Proof.Gen.Kernel.Skeleton
import proofs.«128749_j32134945309413_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first call: messages, one block of 1024 rows per grid point

The contents of the core's buffers when the call is entered are a parameter `V`. -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1024x256 := Rect.unit (s := S1024x256) ![0, 0] S1024x256.size inb_S1024x256_S1024x256_0_0
abbrev r0_b : Rect S256x256 := Rect.unit (s := S256x256) ![0, 0] S256x256.size inb_S256x256_S256x256_0_0
abbrev r0_c : Rect S256 := Rect.unit (s := S256) ![0] S256.size inb_S256_S256_0

/-- What the body leaves in the output block: its one whole store, of the payload over the three loads. -/
def out0_3 (x0 : Vec F S1024x256 .f32) (x1 : Vec F S256x256 .f32) (x2 : Vec F S256 .f32) : Vec F S1024x256 .f32 :=
  View.canon [⟨r0_a, k0_pay1 (View.ld x0 r0_a) (View.ld x1 r0_b) (View.ld x2 r0_c)⟩]

theorem cover0_3 (p0 : Vec F S1024x256 .f32) (y : S1024x256.Idx) :
    ∃ pc ∈ ([⟨r0_a, p0⟩] : List (View.Piece (Elt F) S1024x256 .f32)), y ∈ pc.1.set :=
  View.cover_of_tiled [⟨r0_a, p0⟩] S1024x256.size (by rfl) y

set_option maxHeartbeats 1000000 in
/-- The body on whole staging buffers: the three inputs are left as found, the output block ends at `out0_3`. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S1024x256 .f32) (harg4 : arg4.IsWhole)
    (x0 : Vec F S1024x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The call's proof data on core `c`: the arrays as found; after the body each input buffer at its block and the
    output's at `out0_3` of the input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«128749_j32134945309413_1_alg».proof.Proof.Gen.Kernel.Launch
import proofs.«128749_j32134945309413_1_alg».proof.Proof.Gen.Kernel.Skeleton
import proofs.«128749_j32134945309413_1_alg».proof.Proof.Gen.Kernel.Points
import proofs.«128749_j32134945309413_1_alg».proof.Proof.K.Region0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The second call: the weighted sums, accumulated over eight column blocks

Grid point `t` handles row block `t / 8` and column block `t % 8`. A scratch block carries the running sum: it
is reset at column block 0, gains one block product at every point, and is copied to the output block at column block 7. -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is column block 0" (the reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is column block 7" (the copy out). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body, case by case -/

theorem hz2 : (![0, 0] : Fin 2 → Nat) = fun _ => 0 := funext fun a => by fin_cases a <;> rfl

set_option maxHeartbeats 1000000 in
/-- Column block 0, not the last: the scratch is reset and gains the block product; the output block is left alone. -/
theorem sound_kernel1_A (c : Dev nD) (E : Set ℕ) (i : grid1.Coords)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S1024x256 .f32) (harg5 : arg5.IsWhole)
    (hc0 : cond1_0 i) (hc1 : ¬cond1_1 i)
    (x0 : Vec F S1024x1024 .f32) (x1 : Vec F S1024x256 .f32) (xi : Vec F S1024x256 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 k1_pay1)) -∗ K ⟨⟩))
      ⊢ wp frame (wpE (defs₀ (F := F)) Variants.none c none) E (cc1__gnn_kernel i arg2 harg2 arg3 harg3 arg4 harg4 arg5 harg5) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self .., View.mem_set_unit_zero hz2 inb_S1024x256_S1024x256_0_0 y⟩),
    View.canon_cons_unit_zero (S := S1024x256) hz2]
  simp only [View.readAt_eq_ld, View.ld_unit_zero (S := S1024x1024) hz2, View.ld_unit_zero (S := S1024x256) hz2,
    View.readCov_unit_zero (S := S1024x256) _ hz2]

set_option maxHeartbeats 1000000 in
/-- A middle column block: the scratch gains the block product; the output block is left alone. -/
theorem sound_kernel1_B (c : Dev nD) (E : Set ℕ) (i : grid1.Coords)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : ¬cond1_1 i)
    (x0 : Vec F S1024x1024 .f32) (x1 : Vec F S1024x256 .f32) (xi : Vec F S1024x256 .f32) (s : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 s)) -∗ K ⟨⟩))
      ⊢ wp frame (wpE (defs₀ (F := F)) Variants.none c none) E (cc1__gnn_kernel i arg2 harg2 arg3 harg3 arg4 harg4 arg5 harg5) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self .., View.mem_set_unit_zero hz2 inb_S1024x256_S1024x256_0_0 y⟩),
    View.canon_cons_unit_zero (S := S1024x256) hz2]
  simp only [View.readAt_eq_ld, View.ld_unit_zero (S := S1024x1024) hz2, View.ld_unit_zero (S := S1024x256) hz2]

set_option maxHeartbeats 1000000 in
/-- Column block 7: the scratch gains the last block product and the output block receives the finished sum. -/
theorem sound_kernel1_C (c : Dev nD) (E : Set ℕ) (i : grid1.Coords)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : cond1_1 i)
    (x0 : Vec F S1024x1024 .f32) (x1 : Vec F S1024x256 .f32) (s : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1 ∗ owns (c : Thread nD τ) arg4 fullShare (k1_pay2 x0 x1 s)
            ∗ owns (c : Thread nD τ) arg5 fullShare (k1_pay2 x0 x1 s)) -∗ K ⟨⟩))
      ⊢ wp frame (wpE (defs₀ (F := F)) Variants.none c none) E (cc1__gnn_kernel i arg2 harg2 arg3 harg3 arg4 harg4 arg5 harg5) K := by
  simp only [cc1__gnn_kernel_eq_skeleton]; unfold cc1__gnn_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero hz2 inb_S1024x256_S1024x256_0_0 y⟩),
      View.canon_cons_unit_zero (S := S1024x256) hz2]
    simp only [View.readAt_eq_ld, View.ld_unit_zero (S := S1024x1024) hz2, View.ld_unit_zero (S := S1024x256) hz2,
      View.readCov_unit_zero (S := S1024x256) _ hz2]
  iexists _; isplitr
  swap; · iexact H3
  ipureintro
  sl_unfold_words
  rw [View.read_writes_eq_canon _ _ _ (fun y => ⟨_, List.mem_cons_self .., View.mem_set_unit_zero hz2 inb_S1024x256_S1024x256_0_0 y⟩),
    View.canon_cons_unit_zero (S := S1024x256) hz2]
  simp only [View.readAt_eq_ld, View.ld_unit_zero (S := S1024x1024) hz2, View.ld_unit_zero (S := S1024x256) hz2]

/-! ## The running sum, the invariant and the proof data -/

/-- The scratch block after point `n`: at column block 0 the reset block plus the block product, else what the point
    before left plus the block product. -/
def acc1 (c : Dev nD) : (n : ℕ) → n < cfg1.N → Vec F S1024x256 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_reset (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => rfl
  | succ n => exact if_pos h

theorem acc1_step (c : Dev nD) (t : Fin cfg1.N) (h : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The scratch block, a whole scoped buffer of the call's own. -/
abbrev scM1 : Memref sig .tc .vmem S1024x256 .f32 := Memref.whole cc1_scratch0

/-- The core's scoped buffers that are no staging buffer of this call: the other call's six, each at some contents,
    and the scratch block at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- What the launch hands the call: the scoped rest with the scratch at anything, and the generator register. -/
theorem PhiA1_eq (c : Dev nD) :
    (Pipeline.ΦA spec1 c : sProp 𝕄)
      = iprop(scoped1 c (iprop(∃ d, owns (c : Thread nD τ) scM1 fullShare d)) ∗ (∃ r, prngReg c r)) := by
  unfold Pipeline.ΦA scoped1; rw [scopedRest1_eq]; simp only [scM1, owns_whole]; try rfl

/-- The invariant before position `n`: before the first point what the launch hands over; afterwards the same with
    the scratch block at what the point before left in it. -/
def PhiS (c : Dev nD) : (n : ℕ) → n ≤ cfg1.N → sProp 𝕄
  | 0, _ => Pipeline.ΦA spec1 c
  | n + 1, hn => iprop(scoped1 c (owns (c : Thread nD τ) scM1 fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM1 fullShare (acc1 V c n hn)) ∗ (∃ r, prngReg c r)) := rfl

theorem PhiS_pos (c : Dev nD) (n : ℕ) (h : n ≤ cfg1.N) (hz : n ≠ 0) :
    PhiS V c n h = iprop(scoped1 c (owns (c : Thread nD τ) scM1 fullShare (acc1 V c (n - 1) (by omega))) ∗ (∃ r, prngReg c r)) := by
  cases n with
  | zero => exact absurd rfl hz
  | succ n => rfl

/-- The call's proof data on core `c`: the arrays as found; after the body each input buffer at its block and the
    output block at the running sum (read only where the block is written back, at column block 7). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which case the point is in is decided by its column block; the invariant hands over the
    scratch block at what the point before left (at anything at the very first point) and takes it back at this
    point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_reset V c t h0]
    by_cases hz : t.val = 0
    · rw [PhiS_castSucc V c t, PhiS_zero V c _ _ hz, PhiA1_eq]
      unfold scoped1
      iintro ⟨⟨⟨Hb1, Hb2, Hb3, Hb4, Hb5, Hb6, HS⟩, Hg⟩, Ho, ⟨%d0, H0⟩, ⟨%d1, H1⟩, ⟨%d2, H2⟩⟩
      iapply (sound_kernel1_A c Set.univ _ _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexists _; iexact H2
    · rw [PhiS_castSucc V c t, PhiS_pos V c _ _ hz]
      unfold scoped1
      iintro ⟨⟨⟨Hb1, Hb2, Hb3, Hb4, Hb5, Hb6, HS⟩, Hg⟩, Ho, ⟨%d0, H0⟩, ⟨%d1, H1⟩, ⟨%d2, H2⟩⟩
      iapply (sound_kernel1_A c Set.univ _ _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_step V c t h0]
    rw [PhiS_castSucc V c t, PhiS_pos V c _ _ hz]
    unfold scoped1
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_step V c t h0]
      iintro ⟨⟨⟨Hb1, Hb2, Hb3, Hb4, Hb5, Hb6, HS⟩, Hg⟩, Ho, ⟨%d0, H0⟩, ⟨%d1, H1⟩, ⟨%d2, H2⟩⟩
      iapply (sound_kernel1_C c Set.univ _ _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨Hb1, Hb2, Hb3, Hb4, Hb5, Hb6, HS⟩, Hg⟩, Ho, ⟨%d0, H0⟩, ⟨%d1, H1⟩, ⟨%d2, H2⟩⟩
      iapply (sound_kernel1_B c Set.univ _ _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the launch handed over: the scratch block's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold scoped1
  iintro ⟨⟨Hb1, Hb2, Hb3, Hb4, Hb5, Hb6, HS⟩, Hg⟩
  isplitr [Hg]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS
  · iexact Hg

end Cert.Kernel.Hand

end
-- ==== Proof.K.Run.lean ====
import proofs.«128749_j32134945309413_1_alg».proof.Proof.Gen.Kernel.Launch
import proofs.«128749_j32134945309413_1_alg».proof.Proof.Gen.Kernel.Skeleton
import proofs.«128749_j32134945309413_1_alg».proof.Proof.Gen.Kernel.Points
import proofs.«128749_j32134945309413_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The two calls in sequence, from the launch to the return

The contents of the core's unscoped buffers are followed through the program: as launched; after the first call, whose
output array holds what its write-backs left; after the second call likewise. -/

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references (what the first call's proof data take). -/
abbrev V1 : (c : Dev nD) → (b : Ref sig .tc) → Buf (Elt F) ((c : Thread nD τ).loc b) := fun c b => W0 m c b
/-- After the first call: its arrays at what the pipeline leaves, every other buffer as before. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second call: its arrays at what the pipeline leaves, every other buffer as before. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ## The arguments end as launched, and where the result is -/

/-- The rows `z`: an input of the first call, untouched by the second. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl
/-- The distances: untouched by the first call, an input of the second. -/
theorem W4_main_arg1 (c : Dev nD) : W4 m c (Proc.devRef .tc main_arg1) = m ((c : Thread nD τ).loc main_arg1) :=
  calc W4 m c (Proc.devRef .tc main_arg1)
    _ = W2 m c (Proc.devRef .tc main_arg1) := (W4_arr m c 0).trans (((dat1 (V2 m) c).arrAt_in 0 rfl _).trans (A_eq1 (V2 m) c 0))
    _ = W0 m c (Proc.devRef .tc main_arg1) := W2_of_ne m c main_arg1 (by decide)
    _ = m ((c : Thread nD τ).loc main_arg1) := rfl
/-- The matrix `W`: an input of the first call, untouched by the second. -/
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 1).trans (((dat0 (V1 m) c).arrAt_in 1 rfl _).trans (A_eq0 (V1 m) c 1))
    _ = m ((c : Thread nD τ).loc main_arg2) := rfl
/-- The bias `B`: an input of the first call, untouched by the second. -/
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = W0 m c (Proc.devRef .tc main_arg3) := (W2_arr m c 2).trans (((dat0 (V1 m) c).arrAt_in 2 rfl _).trans (A_eq0 (V1 m) c 2))
    _ = m ((c : Thread nD τ).loc main_arg3) := rfl
/-- The result array is the second call's output after its write-backs. -/
theorem W4_main_v1 (c : Dev nD) : W4 m c (Proc.devRef .tc main_v1) = (dat1 (V2 m) c).arrAt 2 cfg1.N := W4_arr m c 2
/-- What the second call finds: the messages are the first call's output after its write-backs, -/
theorem V2_main_v0 (c : Dev nD) : V2 m c main_v0 = (dat0 (V1 m) c).arrAt 3 cfg0.N := W2_arr m c 3
/-- and the distances are as launched. -/
theorem V2_main_arg1 (c : Dev nD) : V2 m c main_arg1 = m ((c : Thread nD τ).loc main_arg1) := W2_of_ne m c main_arg1 (by decide)

/-! ## The proof data family and the thread state -/

abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The first call: entered from the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `W2`, left at `W4`. Its invariant carries the scratch block; it starts as what the
    launch hands over and ends by forgetting the scratch block's contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    have hgive := hout1 (V2 m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The same run with the result array named: it ends at the second call's output after its write-backs. -/
theorem run_value : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.KI.Region0.lean ====
import proofs.«128749_j32134945309413_1_alg».proof.Proof.Gen.KernelIdeal.Launch
import proofs.«128749_j32134945309413_1_alg».proof.Proof.Gen.KernelIdeal.Skeleton
import proofs.«128749_j32134945309413_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first call: messages, one block of 1024 rows per grid point

The contents of the core's buffers when the call is entered are a parameter `V`. -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1024x256 := Rect.unit (s := S1024x256) ![0, 0] S1024x256.size inb_S1024x256_S1024x256_0_0
abbrev r0_b : Rect S256x256 := Rect.unit (s := S256x256) ![0, 0] S256x256.size inb_S256x256_S256x256_0_0
abbrev r0_c : Rect S256 := Rect.unit (s := S256) ![0] S256.size inb_S256_S256_0

/-- What the body leaves in the output block: its one whole store, of the payload over the three loads. -/
def out0_3 (x0 : Vec F S1024x256 .f32) (x1 : Vec F S256x256 .f32) (x2 : Vec F S256 .f32) : Vec F S1024x256 .f32 :=
  View.canon [⟨r0_a, k0_pay1 (View.ld x0 r0_a) (View.ld x1 r0_b) (View.ld x2 r0_c)⟩]

theorem cover0_3 (p0 : Vec F S1024x256 .f32) (y : S1024x256.Idx) :
    ∃ pc ∈ ([⟨r0_a, p0⟩] : List (View.Piece (Elt F) S1024x256 .f32)), y ∈ pc.1.set :=
  View.cover_of_tiled [⟨r0_a, p0⟩] S1024x256.size (by rfl) y

set_option maxHeartbeats 1000000 in
/-- The body on whole staging buffers: the three inputs are left as found, the output block ends at `out0_3`. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S1024x256 .f32) (harg4 : arg4.IsWhole)
    (x0 : Vec F S1024x256 .f32) (x1 : Vec F S256x256 .f32) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__msg_kernel i arg1 harg1 arg2 harg2 arg3 harg3 arg4 harg4) K := by
  simp only [cc0__msg_kernel_eq_skeleton]; unfold cc0__msg_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The call's proof data on core `c`: the arrays as found; after the body each input buffer at its block and the
    output's at `out0_3` of the input blocks; the invariant the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«128749_j32134945309413_1_alg».proof.Proof.Gen.KernelIdeal.Launch
import proofs.«128749_j32134945309413_1_alg».proof.Proof.Gen.KernelIdeal.Skeleton
import proofs.«128749_j32134945309413_1_alg».proof.Proof.Gen.KernelIdeal.Points
import proofs.«128749_j32134945309413_1_alg».proof.Proof.KI.Region0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The second call: the weighted sums, accumulated over eight column blocks

Grid point `t` handles row block `t / 8` and column block `t % 8`. A scratch block carries the running sum: it
is reset at column block 0, gains one block product at every point, and is copied to the output block at column block 7. -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- "This is column block 0" (the reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is column block 7" (the copy out). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body, case by case -/

theorem hz2 : (![0, 0] : Fin 2 → Nat) = fun _ => 0 := funext fun a => by fin_cases a <;> rfl

set_option maxHeartbeats 1000000 in
/-- Column block 0, not the last: the scratch is reset and gains the block product; the output block is left alone. -/
theorem sound_kernel1_A (c : Dev nD) (E : Set ℕ) (i : grid1.Coords)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S1024x256 .f32) (harg5 : arg5.IsWhole)
    (hc0 : cond1_0 i) (hc1 : ¬cond1_1 i)
    (x0 : Vec F S1024x1024 .f32) (x1 : Vec F S1024x256 .f32) (xi : Vec F S1024x256 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 k1_pay1)) -∗ K ⟨⟩))
      ⊢ wp frame (wpE (defs₀ (F := F)) Variants.none c none) E (cc1__gnn_kernel i arg2 harg2 arg3 harg3 arg4 harg4 arg5 harg5) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self .., View.mem_set_unit_zero hz2 inb_S1024x256_S1024x256_0_0 y⟩),
    View.canon_cons_unit_zero (S := S1024x256) hz2]
  simp only [View.readAt_eq_ld, View.ld_unit_zero (S := S1024x1024) hz2, View.ld_unit_zero (S := S1024x256) hz2,
    View.readCov_unit_zero (S := S1024x256) _ hz2]

set_option maxHeartbeats 1000000 in
/-- A middle column block: the scratch gains the block product; the output block is left alone. -/
theorem sound_kernel1_B (c : Dev nD) (E : Set ℕ) (i : grid1.Coords)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : ¬cond1_1 i)
    (x0 : Vec F S1024x1024 .f32) (x1 : Vec F S1024x256 .f32) (xi : Vec F S1024x256 .f32) (s : Vec F S1024x256 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare s
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 s)) -∗ K ⟨⟩))
      ⊢ wp frame (wpE (defs₀ (F := F)) Variants.none c none) E (cc1__gnn_kernel i arg2 harg2 arg3 harg3 arg4 harg4 arg5 harg5) K := by
  simp only [cc1__gnn_kernel_eq_skeleton]; unfold cc1__gnn_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (fun y => ⟨_, List.mem_cons_self .., View.mem_set_unit_zero hz2 inb_S1024x256_S1024x256_0_0 y⟩),
    View.canon_cons_unit_zero (S := S1024x256) hz2]
  simp only [View.readAt_eq_ld, View.ld_unit_zero (S := S1024x1024) hz2, View.ld_unit_zero (S := S1024x256) hz2]

set_option maxHeartbeats 1000000 in
/-- Column block 7: the scratch gains the last block product and the output block receives the finished sum. -/
theorem sound_kernel1_C (c : Dev nD) (E : Set ℕ) (i : grid1.Coords)
    (arg2 : Memref sig .tc .vmem S1024x1024 .f32) (harg2 : arg2.IsWhole) (arg3 : Memref sig .tc .vmem S1024x256 .f32) (harg3 : arg3.IsWhole)
    (arg4 : Memref sig .tc .vmem S1024x256 .f32) (harg4 : arg4.IsWhole) (arg5 : Memref sig .tc .vmem S1024x256 .f32) (harg5 : arg5.IsWhole)
    (hc0 : ¬cond1_0 i) (hc1 : cond1_1 i)
    (x0 : Vec F S1024x1024 .f32) (x1 : Vec F S1024x256 .f32) (s : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1 ∗ owns (c : Thread nD τ) arg4 fullShare (k1_pay2 x0 x1 s)
            ∗ owns (c : Thread nD τ) arg5 fullShare (k1_pay2 x0 x1 s)) -∗ K ⟨⟩))
      ⊢ wp frame (wpE (defs₀ (F := F)) Variants.none c none) E (cc1__gnn_kernel i arg2 harg2 arg3 harg3 arg4 harg4 arg5 harg5) K := by
  simp only [cc1__gnn_kernel_eq_skeleton]; unfold cc1__gnn_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons_self .., View.mem_set_unit_zero hz2 inb_S1024x256_S1024x256_0_0 y⟩),
      View.canon_cons_unit_zero (S := S1024x256) hz2]
    simp only [View.readAt_eq_ld, View.ld_unit_zero (S := S1024x1024) hz2, View.ld_unit_zero (S := S1024x256) hz2,
      View.readCov_unit_zero (S := S1024x256) _ hz2]
  iexists _; isplitr
  swap; · iexact H3
  ipureintro
  sl_unfold_words
  rw [View.read_writes_eq_canon _ _ _ (fun y => ⟨_, List.mem_cons_self .., View.mem_set_unit_zero hz2 inb_S1024x256_S1024x256_0_0 y⟩),
    View.canon_cons_unit_zero (S := S1024x256) hz2]
  simp only [View.readAt_eq_ld, View.ld_unit_zero (S := S1024x1024) hz2, View.ld_unit_zero (S := S1024x256) hz2]

/-! ## The running sum, the invariant and the proof data -/

/-- The scratch block after point `n`: at column block 0 the reset block plus the block product, else what the point
    before left plus the block product. -/
def acc1 (c : Dev nD) : (n : ℕ) → n < cfg1.N → Vec F S1024x256 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_reset (c : Dev nD) (t : Fin cfg1.N) (h : t.val % 8 = 0) :
    acc1 V c t.val t.isLt = k1_pay2 (iblk1 V c 0 t) (iblk1 V c 1 t) k1_pay1 := by
  obtain ⟨n, hn⟩ := t
  cases n with
  | zero => rfl
  | succ n => exact if_pos h

theorem acc1_step (c : Dev nD) (t : Fin cfg1.N) (h : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The scratch block, a whole scoped buffer of the call's own. -/
abbrev scM1 : Memref sig .tc .vmem S1024x256 .f32 := Memref.whole cc1_scratch0

/-- The core's scoped buffers that are no staging buffer of this call: the other call's six, each at some contents,
    and the scratch block at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- What the launch hands the call: the scoped rest with the scratch at anything, and the generator register. -/
theorem PhiA1_eq (c : Dev nD) :
    (Pipeline.ΦA spec1 c : sProp 𝕄)
      = iprop(scoped1 c (iprop(∃ d, owns (c : Thread nD τ) scM1 fullShare d)) ∗ (∃ r, prngReg c r)) := by
  unfold Pipeline.ΦA scoped1; rw [scopedRest1_eq]; simp only [scM1, owns_whole]; try rfl

/-- The invariant before position `n`: before the first point what the launch hands over; afterwards the same with
    the scratch block at what the point before left in it. -/
def PhiS (c : Dev nD) : (n : ℕ) → n ≤ cfg1.N → sProp 𝕄
  | 0, _ => Pipeline.ΦA spec1 c
  | n + 1, hn => iprop(scoped1 c (owns (c : Thread nD τ) scM1 fullShare (acc1 V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scoped1 c (owns (c : Thread nD τ) scM1 fullShare (acc1 V c n hn)) ∗ (∃ r, prngReg c r)) := rfl

theorem PhiS_pos (c : Dev nD) (n : ℕ) (h : n ≤ cfg1.N) (hz : n ≠ 0) :
    PhiS V c n h = iprop(scoped1 c (owns (c : Thread nD τ) scM1 fullShare (acc1 V c (n - 1) (by omega))) ∗ (∃ r, prngReg c r)) := by
  cases n with
  | zero => exact absurd rfl hz
  | succ n => rfl

/-- The call's proof data on core `c`: the arrays as found; after the body each input buffer at its block and the
    output block at the running sum (read only where the block is written back, at column block 7). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: which case the point is in is decided by its column block; the invariant hands over the
    scratch block at what the point before left (at anything at the very first point) and takes it back at this
    point's running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_reset V c t h0]
    by_cases hz : t.val = 0
    · rw [PhiS_castSucc V c t, PhiS_zero V c _ _ hz, PhiA1_eq]
      unfold scoped1
      iintro ⟨⟨⟨Hb1, Hb2, Hb3, Hb4, Hb5, Hb6, HS⟩, Hg⟩, Ho, ⟨%d0, H0⟩, ⟨%d1, H1⟩, ⟨%d2, H2⟩⟩
      iapply (sound_kernel1_A c Set.univ _ _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexists _; iexact H2
    · rw [PhiS_castSucc V c t, PhiS_pos V c _ _ hz]
      unfold scoped1
      iintro ⟨⟨⟨Hb1, Hb2, Hb3, Hb4, Hb5, Hb6, HS⟩, Hg⟩, Ho, ⟨%d0, H0⟩, ⟨%d1, H1⟩, ⟨%d2, H2⟩⟩
      iapply (sound_kernel1_A c Set.univ _ _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexists _; iexact H2
  · have hz : t.val ≠ 0 := fun h => h0 (by rw [h])
    have hc0 : ¬cond1_0 (grid1.coords t) := fun h => h0 ((hcond1_0 t).mp h)
    rw [acc1_step V c t h0]
    rw [PhiS_castSucc V c t, PhiS_pos V c _ _ hz]
    unfold scoped1
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_step V c t h0]
      iintro ⟨⟨⟨Hb1, Hb2, Hb3, Hb4, Hb5, Hb6, HS⟩, Hg⟩, Ho, ⟨%d0, H0⟩, ⟨%d1, H1⟩, ⟨%d2, H2⟩⟩
      iapply (sound_kernel1_C c Set.univ _ _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨Hb1, Hb2, Hb3, Hb4, Hb5, Hb6, HS⟩, Hg⟩, Ho, ⟨%d0, H0⟩, ⟨%d1, H1⟩, ⟨%d2, H2⟩⟩
      iapply (sound_kernel1_B c Set.univ _ _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [Hb1 Hb2 Hb3 Hb4 Hb5 Hb6 HS Hg]
      · isplitr [Hg]
        · isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          iexact HS
        · iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the launch handed over: the scratch block's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold scoped1
  iintro ⟨⟨Hb1, Hb2, Hb3, Hb4, Hb5, Hb6, HS⟩, Hg⟩
  isplitr [Hg]
  · isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS
  · iexact Hg

end Cert.KernelIdeal.Hand

end
-- ==== Proof.KI.Run.lean ====
import proofs.«128749_j32134945309413_1_alg».proof.Proof.Gen.KernelIdeal.Launch
import proofs.«128749_j32134945309413_1_alg».proof.Proof.Gen.KernelIdeal.Skeleton
import proofs.«128749_j32134945309413_1_alg».proof.Proof.Gen.KernelIdeal.Points
import proofs.«128749_j32134945309413_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The two calls in sequence, from the launch to the return

The contents of the core's unscoped buffers are followed through the program: as launched; after the first call, whose
output array holds what its write-backs left; after the second call likewise. -/

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references (what the first call's proof data take). -/
abbrev V1 : (c : Dev nD) → (b : Ref sig .tc) → Buf (Elt F) ((c : Thread nD τ).loc b) := fun c b => W0 m c b
/-- After the first call: its arrays at what the pipeline leaves, every other buffer as before. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second call: its arrays at what the pipeline leaves, every other buffer as before. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ## The arguments end as launched, and where the result is -/

/-- The rows `z`: an input of the first call, untouched by the second. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl
/-- The distances: untouched by the first call, an input of the second. -/
theorem W4_main_arg1 (c : Dev nD) : W4 m c (Proc.devRef .tc main_arg1) = m ((c : Thread nD τ).loc main_arg1) :=
  calc W4 m c (Proc.devRef .tc main_arg1)
    _ = W2 m c (Proc.devRef .tc main_arg1) := (W4_arr m c 0).trans (((dat1 (V2 m) c).arrAt_in 0 rfl _).trans (A_eq1 (V2 m) c 0))
    _ = W0 m c (Proc.devRef .tc main_arg1) := W2_of_ne m c main_arg1 (by decide)
    _ = m ((c : Thread nD τ).loc main_arg1) := rfl
/-- The matrix `W`: an input of the first call, untouched by the second. -/
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 1).trans (((dat0 (V1 m) c).arrAt_in 1 rfl _).trans (A_eq0 (V1 m) c 1))
    _ = m ((c : Thread nD τ).loc main_arg2) := rfl
/-- The bias `B`: an input of the first call, untouched by the second. -/
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = W0 m c (Proc.devRef .tc main_arg3) := (W2_arr m c 2).trans (((dat0 (V1 m) c).arrAt_in 2 rfl _).trans (A_eq0 (V1 m) c 2))
    _ = m ((c : Thread nD τ).loc main_arg3) := rfl
/-- The result array is the second call's output after its write-backs. -/
theorem W4_main_v1 (c : Dev nD) : W4 m c (Proc.devRef .tc main_v1) = (dat1 (V2 m) c).arrAt 2 cfg1.N := W4_arr m c 2
/-- What the second call finds: the messages are the first call's output after its write-backs, -/
theorem V2_main_v0 (c : Dev nD) : V2 m c main_v0 = (dat0 (V1 m) c).arrAt 3 cfg0.N := W2_arr m c 3
/-- and the distances are as launched. -/
theorem V2_main_arg1 (c : Dev nD) : V2 m c main_arg1 = m ((c : Thread nD τ).loc main_arg1) := W2_of_ne m c main_arg1 (by decide)

/-! ## The proof data family and the thread state -/

abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The calls as segments -/

set_option backward.isDefEq.respectTransparency.types false in
/-- The first call: entered from the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `W2`, left at `W4`. Its invariant carries the scratch block; it starts as what the
    launch hands over and ends by forgetting the scratch block's contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (V2 m) c).Φ (Fin.last cfg1.N) from rfl]
    have hgive := hout1 (V2 m) c
    iintro H
    ihave H' := hgive $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

/-- The same run with the result array named: it ends at the second call's output after its write-backs. -/
theorem run_value : θ_run defs (onTc (τ := τ) (main (F := F))) ⟨m, fun _ => 0, ρ⟩ (fun r => ∀ c : Dev nD,
      r.2.mem ((c.tc : Thread nD τ).loc main_v1) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W4_main_v1 m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.Spec.lean ====
/-
  The function both programs compute, on the extended reals.

  A node n sends the message  msg n = z n · W + B  (a row of 256 numbers).  A pair of nodes at distance d carries the
  weight  wt d = exp (-(1/d - 1)² / (1/2))  when d < 1 and 0 otherwise.  Row p of the result is the weighted sum of
  all 8192 messages,  G p q = Σ_n wt (dist p n) · msg n q.

  Also here: a sum over 8192 terms taken 8 blocks of 1024 at a time, in any commutative monoid (no finiteness is
  needed: only commutativity and associativity of the sum are used, which the extended reals have).
-/
import Idealize.ShloMosaic.PureOps
import Idealize.ShloMosaic.PureOps.Ideal
import Idealize.ShloMosaic.Lib.ValueIdx
import Mathlib.Algebra.BigOperators.Fin

noncomputable section

namespace Cert.Spec

open Idealize.ShloMosaic Idealize.ShloMosaic.ValueIdx

abbrev SZ : Shape := ⟨2, ![8192, 256]⟩
abbrev SD : Shape := ⟨2, ![8192, 8192]⟩
abbrev SW : Shape := ⟨2, ![256, 256]⟩
abbrev SB : Shape := ⟨1, ![256]⟩

/-- The literals 1, 1/2 and 0 as the programs spell them. -/
abbrev one : EReal := Ideal.ofBits .f32 0x3F800000#32
abbrev half : EReal := Ideal.ofBits .f32 0x3F000000#32
abbrev zero : EReal := Ideal.ofBits .f32 0x00000000#32

/-- The weight of a pair at distance `d`: the sensitivity exp (-(1/d - 1)² / (1/2)) below the cutoff 1, else 0. -/
def wt (d : EReal) : EReal :=
  Scalar.select (Ideal.cmp .olt d one)
    (Ideal.exp (Ideal.div (-((Ideal.div one d - one) * (Ideal.div one d - one))) half)) zero

/-- Entry `q` of node `n`'s message: row `n` of `z` times column `q` of `W`, plus `B q`. -/
def msg (z : SZ.Idx → EReal) (W : SW.Idx → EReal) (B : SB.Idx → EReal) (n : Fin 8192) (q : Fin 256) : EReal :=
  (∑ k : Fin 256, z (ix2 n k) * W (ix2 k q)) + B (ix1 q)

/-- Entry `(p, q)` of the result: the messages' entries `q` weighted by row `p` of the distances. -/
def Gpq (z : SZ.Idx → EReal) (d : SD.Idx → EReal) (W : SW.Idx → EReal) (B : SB.Idx → EReal) (p : Fin 8192) (q : Fin 256) : EReal :=
  ∑ n : Fin 8192, wt (d (ix2 p n)) * msg z W B n q

/-- The result as an array. -/
def G (z : SZ.Idx → EReal) (d : SD.Idx → EReal) (W : SW.Idx → EReal) (B : SB.Idx → EReal) : SZ.Idx → EReal :=
  fun i => Gpq z d W B (i 0) (i 1)

theorem G_ix2 (z : SZ.Idx → EReal) (d : SD.Idx → EReal) (W : SW.Idx → EReal) (B : SB.Idx → EReal) (p : Fin 8192) (q : Fin 256) :
    G z d W B (ix2 p q) = Gpq z d W B p q := rfl

/-- The messages as an array: row `n` is node `n`'s message. -/
def msgArr (z : SZ.Idx → EReal) (W : SW.Idx → EReal) (B : SB.Idx → EReal) : SZ.Idx → EReal :=
  fun i => msg z W B (i 0) (i 1)

theorem msgArr_ix2 (z : SZ.Idx → EReal) (W : SW.Idx → EReal) (B : SB.Idx → EReal) (n : Fin 8192) (q : Fin 256) :
    msgArr z W B (ix2 n q) = msg z W B n q := rfl

/-- The weighted sums of the rows of ANY message array `M` by the distances `d`. -/
def Gm (d : SD.Idx → EReal) (M : SZ.Idx → EReal) : SZ.Idx → EReal :=
  fun i => ∑ n : Fin 8192, wt (d (ix2 (i 0) n)) * M (ix2 n (i 1))

theorem Gm_ix2 (d : SD.Idx → EReal) (M : SZ.Idx → EReal) (p : Fin 8192) (q : Fin 256) :
    Gm d M (ix2 p q) = ∑ n : Fin 8192, wt (d (ix2 p n)) * M (ix2 n q) := rfl

/-- The result is the weighted sums of the message array. -/
theorem G_eq_Gm (z : SZ.Idx → EReal) (d : SD.Idx → EReal) (W : SW.Idx → EReal) (B : SB.Idx → EReal) :
    G z d W B = Gm d (msgArr z W B) := rfl

/-- Position `l` of block `k` among 8 blocks of 1024. -/
def blk (k : Fin 8) (l : Fin 1024) : Fin 8192 := ⟨k.val * 1024 + l.val, by have := k.isLt; have := l.isLt; omega⟩

theorem blk_val (k : Fin 8) (l : Fin 1024) : (blk k l).val = k.val * 1024 + l.val := rfl

/-- A sum over 8192 terms is the sum over the 8 blocks of the sums over each block's 1024 terms. -/
theorem sum_blocks {M : Type*} [AddCommMonoid M] (f : Fin 8192 → M) :
    ∑ n : Fin 8192, f n = ∑ k : Fin 8, ∑ l : Fin 1024, f (blk k l) := by
  rw [← Fintype.sum_prod_type' (f := fun k l => f (blk k l))]
  refine (Fintype.sum_equiv (finProdFinEquiv (m := 8) (n := 1024)) (fun x => f (blk x.1 x.2)) f (fun x => ?_)).symm
  congr 1
  apply Fin.ext
  show x.1.val * 1024 + x.2.val = x.2.val + 1024 * x.1.val
  omega

end Cert.Spec

end
-- ==== Proof.KI.Pay0.lean ====
/-
  The first call's arithmetic at one entry, on the extended reals: an output block's entry is the row of the z block
  times the column of W, plus the bias entry.
-/
import proofs.«128749_j32134945309413_1_alg».proof.Proof.Gen.KernelIdeal.Skeleton
import proofs.«128749_j32134945309413_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Cert.KernelIdeal Cert.KernelIdeal.Gen

/-! ## The product's operand indices, axis by axis

The product contracts the left operand's axis 1 with the right operand's axis 0: at the output entry `i` and the
contraction index `q` the left operand is read at `(i 0, q)` and the right one at `(q, i 1)`. -/

theorem lhs_k0_0 (i : S1024x256.Idx) (q : Cert.KernelIdeal.dot_S1024x256_S256x256_S1024x256_1_0_0_1_n_n.contr.Idx) :
    (Cert.KernelIdeal.dot_S1024x256_S256x256_S1024x256_1_0_0_1_n_n.lhsIdx i q 0).val = (i 0).val := by
  unfold DotDims.lhsIdx
  rw [dif_neg (show ¬(0 : Fin S1024x256.rank) ∈ Cert.KernelIdeal.dot_S1024x256_S256x256_S1024x256_1_0_0_1_n_n.lhsBatch by decide), dif_pos (show (0 : Fin S1024x256.rank) ∈ Cert.KernelIdeal.dot_S1024x256_S256x256_S1024x256_1_0_0_1_n_n.lhsNonContracting by decide)]
  rfl
theorem lhs_k0_1 (i : S1024x256.Idx) (q : Cert.KernelIdeal.dot_S1024x256_S256x256_S1024x256_1_0_0_1_n_n.contr.Idx) :
    (Cert.KernelIdeal.dot_S1024x256_S256x256_S1024x256_1_0_0_1_n_n.lhsIdx i q 1).val = (q ⟨0, by decide⟩).val :=
  Cert.KernelIdeal.dot_S1024x256_S256x256_S1024x256_1_0_0_1_n_n.lhsIdx_val_of_single rfl i q
theorem rhs_k0_0 (i : S1024x256.Idx) (q : Cert.KernelIdeal.dot_S1024x256_S256x256_S1024x256_1_0_0_1_n_n.contr.Idx) :
    (Cert.KernelIdeal.dot_S1024x256_S256x256_S1024x256_1_0_0_1_n_n.rhsIdx i q 0).val = (q ⟨0, by decide⟩).val :=
  Cert.KernelIdeal.dot_S1024x256_S256x256_S1024x256_1_0_0_1_n_n.rhsIdx_val_of_single rfl i q
theorem rhs_k0_1 (i : S1024x256.Idx) (q : Cert.KernelIdeal.dot_S1024x256_S256x256_S1024x256_1_0_0_1_n_n.contr.Idx) :
    (Cert.KernelIdeal.dot_S1024x256_S256x256_S1024x256_1_0_0_1_n_n.rhsIdx i q 1).val = (i 1).val := by
  unfold DotDims.rhsIdx
  rw [dif_neg (show ¬(1 : Fin S256x256.rank) ∈ Cert.KernelIdeal.dot_S1024x256_S256x256_S1024x256_1_0_0_1_n_n.rhsBatch by decide), dif_pos (show (1 : Fin S256x256.rank) ∈ Cert.KernelIdeal.dot_S1024x256_S256x256_S1024x256_1_0_0_1_n_n.rhsNonContracting by decide)]
  rfl

/-- The product into a zero accumulator, at the entry `(p, q)`: row `p` of the left operand times column `q` of the
    right one. -/
theorem matmul0_apply (a : FVec Ideal S1024x256 .bf16) (b : FVec Ideal S256x256 .bf16) (p : Fin 1024) (q : Fin 256) :
    matmul (F := Ideal) Cert.KernelIdeal.dot_S1024x256_S256x256_S1024x256_1_0_0_1_n_n none a b (constant (F := Ideal) S1024x256 .f32 0x00000000#32) (ix2 p q)
      = ∑ k : Fin 256, a (ix2 p k) * b (ix2 k q) := by
  show FloatOps.matmul Cert.KernelIdeal.dot_S1024x256_S256x256_S1024x256_1_0_0_1_n_n none a b (constant (F := Ideal) S1024x256 .f32 0x00000000#32) (ix2 p q) = _
  rw [Ideal.matmul_constant_zero_apply, ← Equiv.sum_comp (ValueIdx.contrEquiv1 Cert.KernelIdeal.dot_S1024x256_S256x256_S1024x256_1_0_0_1_n_n 256 rfl rfl).symm]
  refine Finset.sum_congr rfl fun k _ => ?_
  have hk := ValueIdx.contrEquiv1_symm_val Cert.KernelIdeal.dot_S1024x256_S256x256_S1024x256_1_0_0_1_n_n 256 rfl rfl k
  have el : Cert.KernelIdeal.dot_S1024x256_S256x256_S1024x256_1_0_0_1_n_n.lhsIdx (ix2 p q) ((ValueIdx.contrEquiv1 Cert.KernelIdeal.dot_S1024x256_S256x256_S1024x256_1_0_0_1_n_n 256 rfl rfl).symm k) = ix2 p k := funext fun a => Fin.ext (by
    match a with
    | ⟨0, _⟩ => exact lhs_k0_0 _ _
    | ⟨1, _⟩ => exact (lhs_k0_1 _ _).trans hk)
  have er : Cert.KernelIdeal.dot_S1024x256_S256x256_S1024x256_1_0_0_1_n_n.rhsIdx (ix2 p q) ((ValueIdx.contrEquiv1 Cert.KernelIdeal.dot_S1024x256_S256x256_S1024x256_1_0_0_1_n_n 256 rfl rfl).symm k) = ix2 k q := funext fun a => Fin.ext (by
    match a with
    | ⟨0, _⟩ => exact (rhs_k0_0 _ _).trans hk
    | ⟨1, _⟩ => exact rhs_k0_1 _ _)
  rw [el, er]

/-- The bias row spread over the block's rows: entry `(p, q)` is the bias entry `q`. -/
theorem bias0_apply (x2 : FVec Ideal S256 .f32) (p : Fin 1024) (q : Fin 256) :
    broadcastTo S1024x256 (shapeCast S1x256 x2 shapeCasts_S256_S1x256) broadcasts_S1x256_S1024x256 (ix2 p q) = x2 (ix1 q) := by
  rw [broadcastTo_1b_ab_apply, shapeCast_a_1a_apply]

/-- An entry of the first call's output block. -/
theorem pay0_apply (x0 : Vec Ideal S1024x256 .f32) (x1 : Vec Ideal S256x256 .f32) (x2 : Vec Ideal S256 .f32) (p : Fin 1024) (q : Fin 256) :
    k0_pay1 (F := Ideal) x0 x1 x2 (ix2 p q) = (∑ k : Fin 256, x0 (ix2 p k) * x1 (ix2 k q)) + x2 (ix1 q) := by
  unfold k0_pay1
  rw [addf_apply, matmul0_apply, bias0_apply]
  rfl

end Cert.KernelIdeal.HandValue

end
-- ==== Proof.KI.Value0.lean ====
/-
  What the first call leaves in its output array: the message array. Point t writes back rows 1024 t … 1024 t + 1023,
  each entry the row of z times the column of W plus the bias entry; the eight blocks tile the array.
-/
import proofs.«128749_j32134945309413_1_alg».proof.Proof.KI.Region0
import proofs.«128749_j32134945309413_1_alg».proof.Proof.Spec
import proofs.«128749_j32134945309413_1_alg».proof.Proof.KI.Pay0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The zero offsets of the whole-block loads and the whole-block store, rank 2 and rank 1. -/
theorem msg_zero2 : (![0, 0] : Fin 2 → Nat) = fun _ => 0 := funext fun a => by fin_cases a <;> rfl
theorem msg_zero1 : (![0] : Fin 1 → Nat) = fun _ => 0 := funext fun a => by fin_cases a; rfl

/-- The printed index maps over the grid: the z block and the output block of point `t` are row block `t`; W and the
    bias are read whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The grid has eight points. -/
theorem msg_point_lt (t : Fin cfg0.N) : t.val < 8 := t.isLt

/-- Row `p` of row block `t` among the 8192 rows. -/
abbrev msgRow (t : Fin cfg0.N) (p : Fin 1024) : Fin 8192 := ⟨1024 * t.val + p.val, by have := msg_point_lt t; have := p.isLt; omega⟩

/-- The z block of point `t` is rows `1024 t … 1024 t + 1023` of z. -/
theorem zblk_apply (c : Dev nD) (t : Fin cfg0.N) (p : Fin 1024) (k : Fin 256) :
    (iblk0 V c 0 t : Vec Ideal S1024x256 .f32) (ix2 p k) = (V c main_arg0 : S8192x256.Idx → EReal) (ix2 (msgRow t p) k) := by
  obtain ⟨e0, e1, -⟩ := idx_facts0 t
  unfold iblk0
  rw [View.read_apply]
  show V c main_arg0 (((cfg0.win 0).blk t).view.emb (ix2 p k)) = V c main_arg0 (ix2 (msgRow t p) k)
  congr 1
  funext a
  apply Fin.ext
  match a with
  | ⟨0, _⟩ => show win0_0.index t (0 : Fin 2) * 1024 + 1 * p.val = 1024 * t.val + p.val; omega
  | ⟨1, _⟩ => show win0_0.index t (1 : Fin 2) * 256 + 1 * k.val = k.val; omega

/-- The W block of every point is W. -/
theorem wblk_apply (c : Dev nD) (t : Fin cfg0.N) (k : Fin 256) (q : Fin 256) :
    (iblk0 V c 1 t : Vec Ideal S256x256 .f32) (ix2 k q) = (V c main_arg2 : S256x256.Idx → EReal) (ix2 k q) := by
  obtain ⟨-, -, e0, e1, -⟩ := idx_facts0 t
  unfold iblk0
  rw [View.read_apply]
  show V c main_arg2 (((cfg0.win 1).blk t).view.emb (ix2 k q)) = V c main_arg2 (ix2 k q)
  congr 1
  funext a
  apply Fin.ext
  match a with
  | ⟨0, _⟩ => show win0_1.index t (0 : Fin 2) * 256 + 1 * k.val = k.val; omega
  | ⟨1, _⟩ => show win0_1.index t (1 : Fin 2) * 256 + 1 * q.val = q.val; omega

/-- The bias block of every point is the bias. -/
theorem bblk_apply (c : Dev nD) (t : Fin cfg0.N) (q : Fin 256) :
    (iblk0 V c 2 t : Vec Ideal S256 .f32) (ix1 q) = (V c main_arg3 : S256.Idx → EReal) (ix1 q) := by
  obtain ⟨-, -, -, -, e0, -⟩ := idx_facts0 t
  unfold iblk0
  rw [View.read_apply]
  show V c main_arg3 (((cfg0.win 2).blk t).view.emb (ix1 q)) = V c main_arg3 (ix1 q)
  congr 1
  funext a
  apply Fin.ext
  match a with
  | ⟨0, _⟩ => show win0_2.index t (0 : Fin 1) * 256 + 1 * q.val = q.val; omega

/-- An entry of the block point `t` computes, over blocks named by what they hold: row `1024 t + p` of the message array. -/
theorem msg_entry_eq (z : S8192x256.Idx → EReal) (W : S256x256.Idx → EReal) (B : S256.Idx → EReal)
    (x0 : Vec Ideal S1024x256 .f32) (x1 : Vec Ideal S256x256 .f32) (x2 : Vec Ideal S256 .f32) (n : Fin 8192) (p : Fin 1024) (q : Fin 256)
    (h0 : ∀ k : Fin 256, x0 (ix2 p k) = z (ix2 n k)) (h1 : ∀ k : Fin 256, x1 (ix2 k q) = W (ix2 k q)) (h2 : x2 (ix1 q) = B (ix1 q)) :
    k0_pay1 (F := Ideal) x0 x1 x2 (ix2 p q) = Cert.Spec.msgArr z W B (ix2 n q) := by
  rw [pay0_apply, Cert.Spec.msgArr_ix2, h2]
  unfold Cert.Spec.msg
  congr 1
  exact Finset.sum_congr rfl fun k _ => by rw [h0 k, h1 k]

/-- What point `t` writes back is block `t` of the message array. -/
theorem flushed0_eq (c : Dev nD) (t : Fin cfg0.N) :
    (dat0 (F := Ideal) V c).flushed 3 t
      = ((cfg0.win 3).blk t).view.read (Elt Ideal) (Cert.Spec.msgArr (V c main_arg0) (V c main_arg2) (V c main_arg3)) := by
  show (cfg0.win 3).cut (grid0.coords t) ((dat0 (F := Ideal) V c).after 3 t) = _
  rw [after0_3]
  unfold out0_3
  rw [View.canon_unit_zero msg_zero2]
  simp only [View.ld_unit_zero (S := S1024x256) msg_zero2, View.ld_unit_zero (S := S256x256) msg_zero2, View.ld_unit_zero (S := S256) msg_zero1]
  obtain ⟨-, -, -, -, -, e0, e1⟩ := idx_facts0 t
  funext j
  show k0_pay1 (F := Ideal) (iblk0 V c 0 t) (iblk0 V c 1 t) (iblk0 V c 2 t) (j : S1024x256.Idx)
    = Cert.Spec.msgArr (V c main_arg0) (V c main_arg2) (V c main_arg3) (((cfg0.win 3).blk t).view.emb j)
  have hj : (j : S1024x256.Idx) = ix2 (j 0) (j 1) := eq_ix2 j
  have he : ((cfg0.win 3).blk t).view.emb j = (ix2 (msgRow t (j 0)) (j 1) : S8192x256.Idx) := by
    funext a
    apply Fin.ext
    match a with
    | ⟨0, _⟩ => show win0_3.index t (0 : Fin 2) * 1024 + 1 * (j 0).val = 1024 * t.val + (j 0).val; omega
    | ⟨1, _⟩ => show win0_3.index t (1 : Fin 2) * 256 + 1 * (j 1).val = (j 1).val; omega
  rw [he, hj]
  exact msg_entry_eq _ _ _ _ _ _ _ _ _ (fun k => zblk_apply V c t _ k) (fun k => wblk_apply V c t k _) (bblk_apply V c t _)

/-- An index of the array is in point `t`'s block iff each coordinate is in the block's range on its axis. -/
theorem mem_blk0 (t : Fin cfg0.N) (i : S8192x256.Idx) :
    i ∈ ((cfg0.win 3).blk t).view.set
      ↔ ∀ a : Fin 2, win0_3.index t a * S1024x256.size a ≤ (i a).val ∧ (i a).val < win0_3.index t a * S1024x256.size a + S1024x256.size a := by
  show i ∈ ((View.whole main_v0).slice (win0_3.rect t)).set ↔ _
  rw [View.set_slice_whole, Rect.mem_set_unit]
  exact Iff.rfl

/-- The eight row blocks tile the array: row `r` is in the block of point `r / 1024`. -/
theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  have ht : (i 0).val / 1024 < cfg0.N := by show (i 0).val / 1024 < 8; omega
  refine ⟨⟨(i 0).val / 1024, ht⟩, flush0_3 _, ?_⟩
  rw [mem_blk0]
  obtain ⟨-, -, -, -, -, e0, e1⟩ := idx_facts0 ⟨(i 0).val / 1024, ht⟩
  have e0' : win0_3.index ⟨(i 0).val / 1024, ht⟩ (0 : Fin 2) = (i 0).val / 1024 := e0
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    omega
  | ⟨1, _⟩ =>
    show win0_3.index ⟨(i 0).val / 1024, ht⟩ (1 : Fin 2) * 256 ≤ (i 1).val
      ∧ (i 1).val < win0_3.index ⟨(i 0).val / 1024, ht⟩ (1 : Fin 2) * 256 + 256
    omega

/-- The first call's output array after its write-backs is the message array of the contents it was entered from. -/
theorem final0 (c : Dev nD) :
    (dat0 (F := Ideal) V c).arrAt 3 cfg0.N = Cert.Spec.msgArr (V c main_arg0) (V c main_arg2) (V c main_arg3) := by
  exact (dat0 (F := Ideal) V c).arrAt_eq_of_cover 3 (Cert.Spec.msgArr (V c main_arg0) (V c main_arg2) (V c main_arg3))
    (fun t _ => flushed0_eq V c t) cover0

end Cert.KernelIdeal.HandValue

end
-- ==== Proof.KI.Pay1.lean ====
/-
  The second call's arithmetic at one entry, on the extended reals: the reset block is 0 everywhere; an accumulation
  step adds, to what the scratch block held, the row of the weight block (the weights of the distance block's entries)
  times the column of the message block.
-/
import proofs.«128749_j32134945309413_1_alg».proof.Proof.Gen.KernelIdeal.Skeleton
import proofs.«128749_j32134945309413_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Cert.KernelIdeal Cert.KernelIdeal.Gen

/-- The reset block is zero. -/
theorem pay1_apply (p : Fin 1024) (q : Fin 256) : k1_pay1 (F := Ideal) (ix2 p q) = 0 := by
  unfold k1_pay1
  show shapeCast S1024x256 (broadcast S1024x256 (Scalar.ofBits (F := Ideal) .f32 0x00000000#32)) shapeCasts_S1024x256_S1024x256 (ix2 p q) = 0
  rw [shapeCast_self, broadcast_apply]
  exact Ideal.ofBits_zero_f32

/-- The product's left operand index, first axis: the output's row. -/
theorem lhs_k1_0 (i : S1024x256.Idx) (k : Cert.KernelIdeal.dot_S1024x1024_S1024x256_S1024x256_1_0_0_1_n_n.contr.Idx) :
    (Cert.KernelIdeal.dot_S1024x1024_S1024x256_S1024x256_1_0_0_1_n_n.lhsIdx i k 0).val = (i 0).val := by
  unfold DotDims.lhsIdx
  rw [dif_neg (show ¬(0 : Fin S1024x1024.rank) ∈ Cert.KernelIdeal.dot_S1024x1024_S1024x256_S1024x256_1_0_0_1_n_n.lhsBatch by decide), dif_pos (show (0 : Fin S1024x1024.rank) ∈ Cert.KernelIdeal.dot_S1024x1024_S1024x256_S1024x256_1_0_0_1_n_n.lhsNonContracting by decide)]
  rfl
/-- The product's left operand index, second axis: the contraction coordinate. -/
theorem lhs_k1_1 (i : S1024x256.Idx) (k : Cert.KernelIdeal.dot_S1024x1024_S1024x256_S1024x256_1_0_0_1_n_n.contr.Idx) :
    (Cert.KernelIdeal.dot_S1024x1024_S1024x256_S1024x256_1_0_0_1_n_n.lhsIdx i k 1).val = (k ⟨0, by decide⟩).val :=
  Cert.KernelIdeal.dot_S1024x1024_S1024x256_S1024x256_1_0_0_1_n_n.lhsIdx_val_of_single rfl i k
/-- The product's right operand index, first axis: the contraction coordinate. -/
theorem rhs_k1_0 (i : S1024x256.Idx) (k : Cert.KernelIdeal.dot_S1024x1024_S1024x256_S1024x256_1_0_0_1_n_n.contr.Idx) :
    (Cert.KernelIdeal.dot_S1024x1024_S1024x256_S1024x256_1_0_0_1_n_n.rhsIdx i k 0).val = (k ⟨0, by decide⟩).val :=
  Cert.KernelIdeal.dot_S1024x1024_S1024x256_S1024x256_1_0_0_1_n_n.rhsIdx_val_of_single rfl i k
/-- The product's right operand index, second axis: the output's column. -/
theorem rhs_k1_1 (i : S1024x256.Idx) (k : Cert.KernelIdeal.dot_S1024x1024_S1024x256_S1024x256_1_0_0_1_n_n.contr.Idx) :
    (Cert.KernelIdeal.dot_S1024x1024_S1024x256_S1024x256_1_0_0_1_n_n.rhsIdx i k 1).val = (i 1).val := by
  unfold DotDims.rhsIdx
  rw [dif_neg (show ¬(1 : Fin S1024x256.rank) ∈ Cert.KernelIdeal.dot_S1024x1024_S1024x256_S1024x256_1_0_0_1_n_n.rhsBatch by decide), dif_pos (show (1 : Fin S1024x256.rank) ∈ Cert.KernelIdeal.dot_S1024x1024_S1024x256_S1024x256_1_0_0_1_n_n.rhsNonContracting by decide)]
  rfl

/-- The matrix product into a zero accumulator at an entry: the row of the left factor times the column of the right. -/
theorem matmul1_apply (A : FVec Ideal S1024x1024 .bf16) (B : FVec Ideal S1024x256 .bf16) (p : Fin 1024) (q : Fin 256) :
    FloatOps.matmul Cert.KernelIdeal.dot_S1024x1024_S1024x256_S1024x256_1_0_0_1_n_n none A B (constant (F := Ideal) S1024x256 .f32 0x00000000#32) (ix2 p q)
      = ∑ l : Fin 1024, A (ix2 p l) * B (ix2 l q) := by
  rw [Ideal.matmul_constant_zero_apply, ← Equiv.sum_comp (ValueIdx.contrEquiv1 Cert.KernelIdeal.dot_S1024x1024_S1024x256_S1024x256_1_0_0_1_n_n 1024 rfl rfl).symm]
  refine Finset.sum_congr rfl fun k _ => ?_
  have hk := ValueIdx.contrEquiv1_symm_val Cert.KernelIdeal.dot_S1024x1024_S1024x256_S1024x256_1_0_0_1_n_n 1024 rfl rfl k
  have el : Cert.KernelIdeal.dot_S1024x1024_S1024x256_S1024x256_1_0_0_1_n_n.lhsIdx (ix2 p q) ((ValueIdx.contrEquiv1 Cert.KernelIdeal.dot_S1024x1024_S1024x256_S1024x256_1_0_0_1_n_n 1024 rfl rfl).symm k) = ix2 p k := funext fun a => Fin.ext (by
    match a with
    | ⟨0, _⟩ => exact lhs_k1_0 _ _
    | ⟨1, _⟩ => exact (lhs_k1_1 _ _).trans hk)
  have er : Cert.KernelIdeal.dot_S1024x1024_S1024x256_S1024x256_1_0_0_1_n_n.rhsIdx (ix2 p q) ((ValueIdx.contrEquiv1 Cert.KernelIdeal.dot_S1024x1024_S1024x256_S1024x256_1_0_0_1_n_n 1024 rfl rfl).symm k) = ix2 k q := funext fun a => Fin.ext (by
    match a with
    | ⟨0, _⟩ => exact (rhs_k1_0 _ _).trans hk
    | ⟨1, _⟩ => exact rhs_k1_1 _ _)
  rw [el, er]

/-- Zero minus a number is its negative (the program writes the zero as a literal word). -/
theorem k1_zero_sub (a : EReal) : (Ideal.ofBits .f32 0x00000000#32 : EReal) - a = -a := by
  rw [Ideal.ofBits_zero_f32, zero_sub]

/-- The program's weight of a distance is the specification's: exp (-(1/d - 1)² / (1/2)) below the cutoff 1, else 0. -/
theorem k1_wt_eq (d : EReal) :
    Scalar.select (Ideal.cmp .olt d (Ideal.ofBits .f32 0x3F800000#32))
      (Ideal.exp (Ideal.div ((Ideal.ofBits .f32 0x00000000#32 : EReal)
        - (Ideal.div (Ideal.ofBits .f32 0x3F800000#32) d - (Ideal.ofBits .f32 0x3F800000#32 : EReal))
          * (Ideal.div (Ideal.ofBits .f32 0x3F800000#32) d - (Ideal.ofBits .f32 0x3F800000#32 : EReal)))
        (Ideal.ofBits .f32 0x3F000000#32)))
      (Ideal.ofBits .f32 0x00000000#32 : EReal) = Cert.Spec.wt d := by
  unfold Cert.Spec.wt
  rw [k1_zero_sub]

/-- An entry of the scratch block after an accumulation step. -/
theorem pay2_apply (x0 : Vec Ideal S1024x1024 .f32) (x1 : Vec Ideal S1024x256 .f32) (s : Vec Ideal S1024x256 .f32) (p : Fin 1024) (q : Fin 256) :
    k1_pay2 (F := Ideal) x0 x1 s (ix2 p q) = s (ix2 p q) + ∑ l : Fin 1024, Cert.Spec.wt (x0 (ix2 p l)) * x1 (ix2 l q) := by
  unfold k1_pay2
  rw [shapeCast_self, addf_apply]
  congr 1
  refine (matmul1_apply _ _ p q).trans ?_
  refine Finset.sum_congr rfl fun l _ => ?_
  rw [truncf_apply, truncf_apply, shapeCast_self]
  congr 1
  exact k1_wt_eq (x0 (ix2 p l))

end Cert.KernelIdeal.HandValue

end
-- ==== Proof.KI.Value1.lean ====
/-
  What the second call leaves in its output array: row block i0 is written back once, at column block 7, with the
  running sum of the eight block products, which is the weighted sum over all 8192 columns.
-/
import proofs.«128749_j32134945309413_1_alg».proof.Proof.KI.Region1
import proofs.«128749_j32134945309413_1_alg».proof.Proof.Spec
import proofs.«128749_j32134945309413_1_alg».proof.Proof.KI.Pay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The printed index maps, decided once over the grid -/

/-- Point `t` has row block `t / 8` and column block `t % 8`: the distances' block is (t / 8, t % 8), the messages'
    block is (t % 8, 0), the output's block is (t / 8, 0). -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0)

/-! ## The arrays and the blocks, at their literal types -/

/-- The distances, as the call finds them. -/
abbrev dArr (c : Dev nD) : Vec Ideal S8192x8192 .f32 := V c main_arg1
/-- The message array, as the call finds it. -/
abbrev mArr (c : Dev nD) : Vec Ideal S8192x256 .f32 := V c main_v0
/-- The distances' block at point `t`. -/
abbrev dBlk (c : Dev nD) (t : Fin cfg1.N) : Vec Ideal S1024x1024 .f32 := iblk1 V c 0 t
/-- The messages' block at point `t`. -/
abbrev mBlk (c : Dev nD) (t : Fin cfg1.N) : Vec Ideal S1024x256 .f32 := iblk1 V c 1 t

/-- Entry (p, l) of the distances' block at point `t` is entry (t / 8 · 1024 + p, t % 8 · 1024 + l) of the distances. -/
theorem dBlk_apply (c : Dev nD) (t : Fin cfg1.N) (p l : Fin 1024) (P L : Fin 8192)
    (hP : P.val = t.val / 8 * 1024 + p.val) (hL : L.val = t.val % 8 * 1024 + l.val) :
    dBlk V c t (ix2 p l) = dArr V c (ix2 P L) := by
  obtain ⟨e0, e1, -, -, -, -⟩ := idx_facts t
  show V c main_arg1 (((cfg1.win 0).blk t).view.emb (ix2 p l)) = V c main_arg1 (ix2 P L)
  apply congrArg
  funext a; apply Fin.ext
  match a with
  | ⟨0, _⟩ => show win1_0.index t (0 : Fin 2) * 1024 + 1 * p.val = P.val; omega
  | ⟨1, _⟩ => show win1_0.index t (1 : Fin 2) * 1024 + 1 * l.val = L.val; omega

/-- Entry (l, q) of the messages' block at point `t` is entry (t % 8 · 1024 + l, q) of the message array. -/
theorem mBlk_apply (c : Dev nD) (t : Fin cfg1.N) (l : Fin 1024) (q : Fin 256) (L : Fin 8192)
    (hL : L.val = t.val % 8 * 1024 + l.val) :
    mBlk V c t (ix2 l q) = mArr V c (ix2 L q) := by
  obtain ⟨-, -, e2, e3, -, -⟩ := idx_facts t
  show V c main_v0 (((cfg1.win 1).blk t).view.emb (ix2 l q)) = V c main_v0 (ix2 L q)
  apply congrArg
  funext a; apply Fin.ext
  match a with
  | ⟨0, _⟩ => show win1_1.index t (0 : Fin 2) * 1024 + 1 * l.val = L.val; omega
  | ⟨1, _⟩ => show win1_1.index t (1 : Fin 2) * 256 + 1 * q.val = q.val; omega

/-! ## The running sum, point by point -/

/-- The block product of column block `k` at row `P` and column `q` (nothing past the eighth block). -/
def term (d : Cert.Spec.SD.Idx → EReal) (M : Cert.Spec.SZ.Idx → EReal) (P : Fin 8192) (q : Fin 256) (k : ℕ) : EReal :=
  if h : k < 8 then ∑ l : Fin 1024, Cert.Spec.wt (d (ix2 P (Cert.Spec.blk ⟨k, h⟩ l))) * M (ix2 (Cert.Spec.blk ⟨k, h⟩ l) q) else 0

/-- The block product the body forms at point `t` is that of column block `t % 8`, at the row of row block `t / 8`. -/
theorem block_term (c : Dev nD) (t : Fin cfg1.N) (p : Fin 1024) (q : Fin 256) (P : Fin 8192)
    (hP : P.val = t.val / 8 * 1024 + p.val) :
    ∑ l : Fin 1024, Cert.Spec.wt (dBlk V c t (ix2 p l)) * mBlk V c t (ix2 l q)
      = term (dArr V c) (mArr V c) P q (t.val % 8) := by
  have hk : t.val % 8 < 8 := Nat.mod_lt _ (by decide)
  unfold term
  rw [dif_pos hk]
  refine Finset.sum_congr rfl fun l _ => ?_
  rw [dBlk_apply V c t p l P (Cert.Spec.blk ⟨t.val % 8, hk⟩ l) hP rfl,
    mBlk_apply V c t l q (Cert.Spec.blk ⟨t.val % 8, hk⟩ l) rfl]

/-- At column block 0 the scratch holds the first block product. -/
theorem acc1_at_reset (c : Dev nD) (t : Fin cfg1.N) (h0 : t.val % 8 = 0) (p : Fin 1024) (q : Fin 256) (P : Fin 8192)
    (hP : P.val = t.val / 8 * 1024 + p.val) :
    acc1 V c t.val t.isLt (ix2 p q) = term (dArr V c) (mArr V c) P q (t.val % 8) := by
  refine (congrFun (acc1_reset V c t h0) (ix2 p q)).trans ?_
  refine (pay2_apply (dBlk V c t) (mBlk V c t) (k1_pay1 (F := Ideal)) p q).trans ?_
  rw [pay1_apply, zero_add, block_term V c t p q P hP]

/-- At any other column block the scratch gains that block's product. -/
theorem acc1_at_step (c : Dev nD) (t : Fin cfg1.N) (h0 : ¬t.val % 8 = 0) (p : Fin 1024) (q : Fin 256) (P : Fin 8192)
    (hP : P.val = t.val / 8 * 1024 + p.val) :
    acc1 V c t.val t.isLt (ix2 p q)
      = acc1 V c (t.val - 1) (Nat.lt_of_le_of_lt (Nat.sub_le _ _) t.isLt) (ix2 p q) + term (dArr V c) (mArr V c) P q (t.val % 8) := by
  refine (congrFun (acc1_step V c t h0) (ix2 p q)).trans ?_
  refine (pay2_apply (dBlk V c t) (mBlk V c t) (acc1 V c (t.val - 1) (Nat.lt_of_le_of_lt (Nat.sub_le _ _) t.isLt)) p q).trans ?_
  rw [block_term V c t p q P hP]

/-- THE INVARIANT: after point `n` the scratch block holds, at row `p` of row block `n / 8`, the sum of the block
    products of the column blocks up to `n % 8`. -/
theorem acc1_eq (c : Dev nD) : ∀ (n : ℕ) (h : n < cfg1.N) (p : Fin 1024) (q : Fin 256) (P : Fin 8192),
    P.val = n / 8 * 1024 + p.val →
    acc1 V c n h (ix2 p q) = ∑ k ∈ Finset.range (n % 8 + 1), term (dArr V c) (mArr V c) P q k := by
  intro n
  induction n with
  | zero =>
    intro h p q P hP
    rw [Finset.sum_range_one]
    exact acc1_at_reset V c ⟨0, h⟩ rfl p q P hP
  | succ n ih =>
    intro h p q P hP
    by_cases h0 : (n + 1) % 8 = 0
    · rw [h0, Finset.sum_range_one]
      have e := acc1_at_reset V c ⟨n + 1, h⟩ h0 p q P hP
      rw [show (⟨n + 1, h⟩ : Fin cfg1.N).val % 8 = 0 from h0] at e
      exact e
    · have e := acc1_at_step V c ⟨n + 1, h⟩ h0 p q P hP
      have hm : (n + 1) % 8 = n % 8 + 1 := by omega
      have hd : (n + 1) / 8 = n / 8 := by omega
      rw [hm, Finset.sum_range_succ, ← ih (Nat.lt_of_succ_lt h) p q P (by rw [hP, hd])]
      rw [show (⟨n + 1, h⟩ : Fin cfg1.N).val % 8 = n % 8 + 1 from hm] at e
      exact e

/-! ## What a write-back carries -/

/-- At column block 7 the running sum is the whole weighted sum over the 8192 columns. -/
theorem acc1_at_flush (c : Dev nD) (t : Fin cfg1.N) (h7 : t.val % 8 = 7) (p : Fin 1024) (q : Fin 256) (P : Fin 8192)
    (hP : P.val = t.val / 8 * 1024 + p.val) :
    acc1 V c t.val t.isLt (ix2 p q) = Cert.Spec.Gm (dArr V c) (mArr V c) (ix2 P q) := by
  rw [acc1_eq V c t.val t.isLt p q P hP, show t.val % 8 + 1 = 8 from by omega, Cert.Spec.Gm_ix2, Cert.Spec.sum_blocks,
    Finset.sum_range]
  refine Finset.sum_congr rfl fun k _ => ?_
  unfold term
  rw [dif_pos k.isLt]

/-- WHAT A WRITING POINT WRITES BACK is its block of the weighted sums. -/
theorem flushed_eq (c : Dev nD) (t : Fin cfg1.N) (hf : (cfg1.win 2).flush t = true) :
    (dat1 V c).flushed 2 t
      = ((cfg1.win 2).blk t).view.read (Elt Ideal) (Cert.Spec.Gm (V c main_arg1) (V c main_v0)) := by
  have h7 : t.val % 8 = 7 := (flush1_2 t).mp hf
  have hN : t.val < 64 := lt_of_lt_of_eq t.isLt (show cfg1.N = 64 from N_1)
  obtain ⟨-, -, -, -, e4, e5⟩ := idx_facts t
  show (cfg1.win 2).cut (grid1.coords t) ((dat1 V c).after 2 t) = _
  rw [after1_2]
  funext j
  have hj0 : (j 0).val < 1024 := (j 0).isLt
  have hj1 : (j 1).val < 256 := (j 1).isLt
  show acc1 V c t.val t.isLt ((cfg1.win 2).xinj (grid1.coords t) j)
    = Cert.Spec.Gm (dArr V c) (mArr V c) (((cfg1.win 2).blk t).view.emb j)
  have el : (cfg1.win 2).xinj (grid1.coords t) j = ix2 (⟨(j 0).val, hj0⟩ : Fin 1024) (⟨(j 1).val, hj1⟩ : Fin 256) := by
    funext a; apply Fin.ext
    match a with
    | ⟨0, _⟩ => rfl
    | ⟨1, _⟩ => rfl
  have er : ((cfg1.win 2).blk t).view.emb j
      = ix2 (⟨t.val / 8 * 1024 + (j 0).val, by omega⟩ : Fin 8192) (⟨(j 1).val, hj1⟩ : Fin 256) := by
    funext a; apply Fin.ext
    match a with
    | ⟨0, _⟩ => show win1_2.index t (0 : Fin 2) * 1024 + 1 * (j 0).val = t.val / 8 * 1024 + (j 0).val; omega
    | ⟨1, _⟩ => show win1_2.index t (1 : Fin 2) * 256 + 1 * (j 1).val = (j 1).val; omega
  exact (congrArg (acc1 V c t.val t.isLt) el).trans
    ((acc1_at_flush V c t h7 ⟨(j 0).val, hj0⟩ ⟨(j 1).val, hj1⟩ ⟨t.val / 8 * 1024 + (j 0).val, by omega⟩ rfl).trans
      (congrArg (Cert.Spec.Gm (dArr V c) (mArr V c)) er.symm))

/-! ## The write-backs cover the array -/

/-- An index of the output array is in point `t`'s block iff each coordinate is in the block's range on its axis. -/
theorem mem_blk (t : Fin cfg1.N) (i : S8192x256.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v1).slice (win1_2.rect t)).set ↔ _
  rw [View.set_slice_whole, Rect.mem_set_unit]
  exact Iff.rfl

/-- Row `r` is written back by the point with row block `r / 1024` and column block 7. -/
theorem cover (i : S8192x256.Idx) :
    ∃ t : Fin cfg1.N, (cfg1.win 2).flush t = true ∧ i ∈ ((cfg1.win 2).blk t).view.set := by
  have hi0 : (i 0).val < 8192 := (i 0).isLt
  have hi1 : (i 1).val < 256 := (i 1).isLt
  have hN : cfg1.N = 64 := N_1
  have ht : 8 * ((i 0).val / 1024) + 7 < cfg1.N := by rw [hN]; omega
  obtain ⟨-, -, -, -, e4, e5⟩ := idx_facts ⟨8 * ((i 0).val / 1024) + 7, ht⟩
  have e4' : win1_2.index ⟨8 * ((i 0).val / 1024) + 7, ht⟩ (0 : Fin 2) = (8 * ((i 0).val / 1024) + 7) / 8 := e4
  refine ⟨⟨8 * ((i 0).val / 1024) + 7, ht⟩, (flush1_2 _).mpr (show (8 * ((i 0).val / 1024) + 7) % 8 = 7 by omega), ?_⟩
  rw [mem_blk]
  intro a
  match a with
  | ⟨0, _⟩ =>
    show win1_2.index ⟨8 * ((i 0).val / 1024) + 7, ht⟩ (0 : Fin 2) * 1024 ≤ (i 0).val
      ∧ (i 0).val < win1_2.index ⟨8 * ((i 0).val / 1024) + 7, ht⟩ (0 : Fin 2) * 1024 + 1024
    omega
  | ⟨1, _⟩ =>
    show win1_2.index ⟨8 * ((i 0).val / 1024) + 7, ht⟩ (1 : Fin 2) * 256 ≤ (i 1).val
      ∧ (i 1).val < win1_2.index ⟨8 * ((i 0).val / 1024) + 7, ht⟩ (1 : Fin 2) * 256 + 256
    omega

/-- The second call's output array after its write-backs is the weighted sums, by the distances it was entered with,
    of the rows of the message array it was entered with. -/
theorem final1 (c : Dev nD) :
    (dat1 (F := Ideal) V c).arrAt 2 cfg1.N = Cert.Spec.Gm (V c main_arg1) (V c main_v0) := by
  exact (dat1 V c).arrAt_eq_of_cover 2 (Cert.Spec.Gm (V c main_arg1) (V c main_v0))
    (fun t ht => flushed_eq V c t ht) (fun i => cover i)

end Cert.KernelIdeal.HandValue

end
-- ==== Proof.RefValue.lean ====
/-
  The reference computes the specification's function.

  Entry (p, q) of the reference's result is a sum over the 8192 nodes n of two factors. The first is read from the
  distance d = dist p n alone: exp (-(1/d - 1)² / (1/2)) where d < 1 and 0 elsewhere, which is the weight wt d. The
  second is entry q of node n's message: row n of z times column q of W, plus B q. So the reference computes, entry by
  entry, the weighted sum of the messages, G p q = Σ_n wt (dist p n) · msg n q.
-/
import proofs.«128749_j32134945309413_1_alg».proof.Proof.Gen.ReferenceIdeal.Run
import proofs.«128749_j32134945309413_1_alg».proof.Proof.Gen.ReferenceIdeal.Read
import proofs.«128749_j32134945309413_1_alg».proof.Proof.Spec

noncomputable section

namespace Cert.ReferenceIdeal.RefValue

open Cert.ReferenceIdeal Cert.ReferenceIdeal.Read Idealize.ShloMosaic Idealize.ShloMosaic.ValueIdx

/-- The weight factor: the reference's masked sensitivity at a pair is the weight of the pair's distance. -/
theorem weight_eq (x1 : (⟨S8192x8192, .f32⟩ : BufTy).Contents (Elt Ideal)) (j : S8192x8192.Idx) :
    val_main_v15 (F := Ideal) x1 j = Cert.Spec.wt (x1 j) := by
  rw [val_main_v15_apply, val_main_v14_apply, val_main_v12_apply, val_main_v11_apply, val_main_v9_apply,
    val_main_v8_apply, val_main_v7_apply, val_main_v5_apply, val_main_v4_apply, val_main_v6_apply,
    val_main_v10_apply, val_main_v13_apply, val_main_call0_v1_apply, val_main_call0_v0_apply, val_main_cst_apply,
    val_main_cst_0_apply, val_main_cst_1_apply, val_main_cst_2_apply, val_main_cst_3_apply]
  simp only [Ideal.hostDivf_def, Ideal.subf_def, Ideal.mulf_def, Ideal.hostNegf_def, Ideal.negf_def,
    Ideal.hostUnary_exp_def, Ideal.ofBits_def]
  rfl

/-- The message factor: the reference's affine stage at (n, q) is entry q of node n's message. -/
theorem message_eq (x0 : (⟨S8192x256, .f32⟩ : BufTy).Contents (Elt Ideal)) (x2 : (⟨S256x256, .f32⟩ : BufTy).Contents (Elt Ideal))
    (x3 : (⟨S256, .f32⟩ : BufTy).Contents (Elt Ideal)) (n : Fin 8192) (q : Fin 256) :
    val_main_v3 (F := Ideal) x0 x2 x3 (ix2 n q) = Cert.Spec.msg x0 x2 x3 n q := by
  rw [val_main_v3_apply, val_main_v0_apply, val_main_v2_apply, val_main_v1_apply, Ideal.addf_def]
  unfold Cert.Spec.msg
  have hb : idx_main_v1 (idx_main_v2 (ix2 n q)) = ix1 q := funext fun a => by match a with | ⟨0, _⟩ => rfl
  have hl (k : Fin 256) : lidx_main_v0 (ix2 n q) k = ix2 n k := funext fun a => by
    match a with | ⟨0, _⟩ => rfl | ⟨1, _⟩ => rfl
  have hr (k : Fin 256) : ridx_main_v0 (ix2 n q) k = ix2 k q := funext fun a => by
    match a with | ⟨0, _⟩ => rfl | ⟨1, _⟩ => rfl
  rw [hb]
  congr 1
  exact Finset.sum_congr rfl fun k _ => by rw [hl, hr]

/-- The reference's last stage is the specification's function of the four argument arrays. -/
theorem ref_eq (x0 : (⟨Cert.ReferenceIdeal.S8192x256, .f32⟩ : BufTy).Contents (Elt Ideal))
    (x1 : (⟨Cert.ReferenceIdeal.S8192x8192, .f32⟩ : BufTy).Contents (Elt Ideal))
    (x2 : (⟨Cert.ReferenceIdeal.S256x256, .f32⟩ : BufTy).Contents (Elt Ideal))
    (x3 : (⟨Cert.ReferenceIdeal.S256, .f32⟩ : BufTy).Contents (Elt Ideal)) :
    Cert.ReferenceIdeal.Read.val_main_v16 (F := Ideal) x0 x1 x2 x3 = Cert.Spec.G x0 x1 x2 x3 := by
  funext i
  obtain ⟨p, q, rfl⟩ : ∃ (p : Fin 8192) (q : Fin 256), i = ix2 p q := ⟨i 0, i 1, eq_ix2 i⟩
  rw [Cert.Spec.G_ix2, val_main_v16_apply]
  unfold Cert.Spec.Gpq
  refine Finset.sum_congr rfl fun n _ => ?_
  have hl : lidx_main_v16 (ix2 p q) n = ix2 p n := funext fun a => by
    match a with | ⟨0, _⟩ => rfl | ⟨1, _⟩ => rfl
  have hr : ridx_main_v16 (ix2 p q) n = ix2 n q := funext fun a => by
    match a with | ⟨0, _⟩ => rfl | ⟨1, _⟩ => rfl
  rw [hl, hr, weight_eq, message_eq]

end Cert.ReferenceIdeal.RefValue

end
-- ==== Proof.lean ====
/-
  Both programs compute, on the extended reals, the weighted sums of messages
      G p q = Σ_n wt (dist p n) · (z n · W + B) q,      wt d = exp (-(1/d - 1)² / (1/2)) for d < 1, else 0.

  The kernel does it in two calls. The first writes the message array, eight blocks of 1024 rows, each entry a row of z
  times a column of W plus a bias entry. The second walks an 8 × 8 grid of blocks: for a row block it resets a scratch
  block, adds one product (weights of a 1024 × 1024 block of distances) · (1024 rows of messages) per column block,
  and copies the finished sum out at the last column block. The eight partial sums of 1024 terms are the one sum of
  8192 terms by commutativity and associativity of addition alone (the extended reals are a commutative monoid under
  +), so the precondition is never opened. The weights agree entry by entry: the kernel's 0 - u² is the reference's
  -(u²), and every other operation and literal is the same on both sides; a change of float format is the identity.

  The frames: each call's body is run symbolically at a generic grid point; the second call's invariant carries the
  scratch block at the running sum from one point to the next. The reference is one straight line of host operations.
  The idealization rewrote nothing, so there is nothing to preserve.
-/
import proofs.«128749_j32134945309413_1_alg».proof.Defs
import proofs.«128749_j32134945309413_1_alg».proof.Proof.Gen.Kernel
import proofs.«128749_j32134945309413_1_alg».proof.Proof.Gen.KernelIdeal
import proofs.«128749_j32134945309413_1_alg».proof.Proof.Gen.ReferenceIdeal
import proofs.«128749_j32134945309413_1_alg».proof.Proof.Gen.Pre_finite_inputs
import proofs.«128749_j32134945309413_1_alg».proof.Proof.K.Run
import proofs.«128749_j32134945309413_1_alg».proof.Proof.KI.Run
import proofs.«128749_j32134945309413_1_alg».proof.Proof.KI.Value0
import proofs.«128749_j32134945309413_1_alg».proof.Proof.KI.Value1
import proofs.«128749_j32134945309413_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and keeps its arguments. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal Cert.KernelIdeal.Gen Cert.KernelIdeal.Hand in
/-- What the kernel's result array ends holding: the second call's weighted sums, over the distances as launched, of
    the first call's message array, which is the messages of the arguments as launched. -/
theorem kernel_value (m : (ℓ : Loc nD τ sig) → Buf (Elt Ideal) ℓ) (c : Dev nD) :
    (dat1 (F := Ideal) (V2 m) c).arrAt 2 cfg1.N
      = Cert.Spec.G (m ((c.tc : Thread nD τ).loc main_arg0)) (m ((c.tc : Thread nD τ).loc main_arg1))
          (m ((c.tc : Thread nD τ).loc main_arg2)) (m ((c.tc : Thread nD τ).loc main_arg3)) := by
  rw [Cert.KernelIdeal.HandValue.final1, V2_main_arg1, V2_main_v0, Cert.KernelIdeal.HandValue.final0, Cert.Spec.G_eq_Gm]

/-- From memories agreeing on the arguments both programs end with the same result array, `G` of the arguments. -/
theorem algebraic : Cert.algebraic_KernelIdeal_ReferenceIdeal := by
  intro m ρ m' ρ' _ hagree
  refine ⟨_, (θ_run Cert.KernelIdeal.defs _ _).mono (fun _ h c => ⟨(h c).1.trans (kernel_value m c), (h c).2⟩)
    (Cert.KernelIdeal.Hand.run_value (F := Ideal) m ρ), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
